-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128x51 : S_.BroadcastsInDim S128x51 (![] : Fin 0 → Fin S128x51.rank)
  reducesTo_S128x51_S_d0_1 : S128x51.ReducesTo [0, 1] S_

variable [Facts]

def fn_part1 {F : FTy → Type} [FloatOps F] (main_arg4 : FVec F S128x128 .f32) (main_arg5 : FVec F S128x51 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x51 .f32 := Host.absf main_arg5
  let main_cst_8 : FVec F S_ .f32 := constant S_ .f32 0x7F800000#32
  let main_v25 : FVec F S128x51 .f32 := broadcastInDim S128x51 ![] bcast_S_S128x51 main_cst_8
  let main_v26 : IVec S128x51 1 := cmpf .olt main_v24 main_v25
  let main_c_9 : IVec S_ 1 := constantI S_ 1 1#1
  let main_v27 : IVec S_ 1 := (fun x v => Host.reduce IntOp.andi x v reducesTo_S128x51_S_d0_1 h_S_) main_v26 main_c_9
  let main_v28 : IVec S_ 1 := andi main_v23 main_v27
  main_v28

def fn {F : FTy → Type} [FloatOps F] (main_arg0 : FVec F S64x1024x64 .f32) (main_arg1 : FVec F S64x1024x1024 .f32) (main_arg2 : FVec F S64x128 .f32) (main_arg3 : FVec F S128x128 .f32) (main_arg4 : FVec F S128x128 .f32) (main_arg5 : FVec F S128x51 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S64x1x51 : Shape := ⟨3, ![64, 1, 51]⟩
abbrev S1x1024x1024 : Shape := ⟨3, ![1, 1024, 1024]⟩
abbrev S1x1024x64 : Shape := ⟨3, ![1, 1024, 64]⟩
abbrev S1x1x51 : Shape := ⟨3, ![1, 1, 51]⟩
abbrev S1024x1024 : Shape := ⟨2, ![1024, 1024]⟩
abbrev S1024x64 : Shape := ⟨2, ![1024, 64]⟩
abbrev S1024x128 : Shape := ⟨2, ![1024, 128]⟩
abbrev S1024x51 : Shape := ⟨2, ![1024, 51]⟩
abbrev S51 : Shape := ⟨1, ![51]⟩
abbrev S1x51 : Shape := ⟨2, ![1, 51]⟩
abbrev S64x51 : Shape := ⟨2, ![64, 51]⟩

abbrev nBuf : Space → Nat
  | .hbm => 8
  | .vmem => 10
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S128x51, .f32⟩
  | .hbm, ⟨6, _⟩ => ⟨S64x1x51, .f32⟩
  | .hbm, ⟨7, _⟩ => ⟨S64x51, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S64x128, .f32⟩
  | .local _ .vmem, ⟨5, _⟩ => ⟨S128x128, .f32⟩
  | .local _ .vmem, ⟨6, _⟩ => ⟨S128x128, .f32⟩
  | .local _ .vmem, ⟨7, _⟩ => ⟨S128x51, .f32⟩
  | .local _ .vmem, ⟨8, _⟩ => ⟨S1x1x51, .f32⟩
  | .local _ .vmem, ⟨9, _⟩ => ⟨S1x1x51, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x51 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x51 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S128x51_S128x51_0_0 : ∀ a, (![0, 0] : Fin 2 → Nat) a + S128x51.size a ≤ S128x51.size a
  h_S128x51 : 0 < S128x51.numel
  reduces_S1024x51_S51 : S1024x51.Reduces [0] S51
  shapeCasts_S51_S1x51 : S51.ShapeCasts S1x51
  inb_S1x1x51_S1x1x51_0_0_0 : ∀ a, (![0, 0, 0] : Fin 3 → Nat) a + S1x1x51.size a ≤ S1x1x51.size a
  h_S1x1x51 : 0 < S1x1x51.numel
  shapeCasts_S1x1x51_S1x51 : S1x1x51.ShapeCasts S1x51
  shapeCasts_S1x51_S1x1x51 : S1x51.ShapeCasts S1x1x51
  shapeCasts_S64x1x51_S64x51 : S64x1x51.ShapeCasts S64x51
  dot_S1024x64_S64x128_S1024x128_1_0_0_1_n_n_wf : DotDims.WF S1024x64 S64x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x51_S1024x51_1_0_0_1_n_n_wf : DotDims.WF S1024x128 S128x51 S1024x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S64x1024x64.size a
  hwx0_1 : ∀ i : grid0.Coords, EltTy.bits .f32 = 32 ∨ (Rect.block (s := S64x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x51.size a ≤ S128x51.size a
  hwx0_5 : ∀ i : grid0.Coords, EltTy.bits .f32 = 32 ∨ (Rect.block (s := S128x51) S128x51.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x51.size a ≤ S64x1x51.size a
  hwx0_6 : ∀ i : grid0.Coords, EltTy.bits .f32 = 32 ∨ (Rect.block (s := S64x1x51) S1x1x51.size (cc0_transform_6 i) (hinb0_6 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x51_S1024x51_1_0_0_1_n_n : DotDims S1024x128 S128x51 S1024x51 where
  lhsContracting := [1]
  rhsContracting := [0]
  lhsNonContracting := [0]
  rhsNonContracting := [1]
  lhsBatch := []
  rhsBatch := []
  wf := dot_S1024x128_S128x51_S1024x51_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x51.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x51.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S64x128 : Shape := ⟨2, ![64, 128]⟩
abbrev S128x128 : Shape := ⟨2, ![128, 128]⟩
abbrev S128x51 : Shape := ⟨2, ![128, 51]⟩
abbrev S64x1024x128 : Shape := ⟨3, ![64, 1024, 128]⟩
abbrev S_ : Shape := ⟨0, ![]⟩
abbrev S64x1024x51 : Shape := ⟨3, ![64, 1024, 51]⟩
abbrev S64x51 : Shape := ⟨2, ![64, 51]⟩

abbrev nBuf : Space → Nat
  | .hbm => 27
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S64x128, .f32⟩
  | .hbm, ⟨3, _⟩ => ⟨S128x128, .f32⟩
  | .hbm, ⟨4, _⟩ => ⟨S128x128, .f32⟩
  | .hbm, ⟨5, _⟩ => ⟨S128x51, .f32⟩
  | .hbm, ⟨6, _⟩ => ⟨S64x1024x128, .f32⟩
  | .hbm, ⟨7, _⟩ => ⟨S64x1024x128, .f32⟩
  | .hbm, ⟨8, _⟩ => ⟨S_, .f32⟩
  | .hbm, ⟨9, _⟩ => ⟨S64x1024x128, .f32⟩
  | .hbm, ⟨10, _⟩ => ⟨S64x1024x128, .f32⟩
  | .hbm, ⟨11, _⟩ => ⟨S64x1024x128, .f32⟩
  | .hbm, ⟨12, _⟩ => ⟨S64x1024x128, .f32⟩
  | .hbm, ⟨13, _⟩ => ⟨S_, .f32⟩
  | .hbm, ⟨14, _⟩ => ⟨S64x1024x128, .f32⟩
  | .hbm, ⟨15, _⟩ => ⟨S64x1024x128, .f32⟩
  | .hbm, ⟨16, _⟩ => ⟨S64x1024x128, .f32⟩
  | .hbm, ⟨17, _⟩ => ⟨S64x1024x128, .f32⟩
  | .hbm, ⟨18, _⟩ => ⟨S_, .f32⟩
  | .hbm, ⟨19, _⟩ => ⟨S64x1024x128, .f32⟩
  | .hbm, ⟨20, _⟩ => ⟨S64x1024x128, .f32⟩
  | .hbm, ⟨21, _⟩ => ⟨S64x1024x51, .f32⟩
  | .hbm, ⟨22, _⟩ => ⟨S_, .f32⟩
  | .hbm, ⟨23, _⟩ => ⟨S64x1024x51, .f32⟩
  | .hbm, ⟨24, _⟩ => ⟨S64x1024x51, .f32⟩
  | .hbm, ⟨25, _⟩ => ⟨S_, .f32⟩
  | .hbm, ⟨26, _⟩ => ⟨S64x51, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call2_cst : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_call3_cst : Ref sig .tc := ⟨.hbm, 22, rfl⟩
abbrev main_call3_v0 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  bcast_S_S64x1024x128 : S_.BroadcastsInDim S64x1024x128 (![] : Fin 0 → Fin S64x1024x128.rank)
  bcast_S_S64x1024x51 : S_.BroadcastsInDim S64x1024x51 (![] : Fin 0 → Fin S64x1024x51.rank)
  reducesTo_S64x1024x51_S64x51_d1 : S64x1024x51.ReducesTo [1] S64x51
  h_S_ : 0 < S_.numel
  dot_S64x1024x64_S64x128_S64x1024x128_2_0_01_1_n_n_wf : DotDims.WF S64x1024x64 S64x128 S64x1024x128 [2] [0] [0, 1] [1] [] []
  dot_S64x1024x1024_S64x1024x128_S64x1024x128_2_1_1_2_0_0_wf : DotDims.WF S64x1024x1024 S64x1024x128 S64x1024x128 [2] [1] [1] [2] [0] [0]
  dot_S64x1024x128_S128x128_S64x1024x128_2_0_01_1_n_n_wf : DotDims.WF S64x1024x128 S128x128 S64x1024x128 [2] [0] [0, 1] [1] [] []
  dot_S64x1024x128_S128x51_S64x1024x51_2_0_01_1_n_n_wf : DotDims.WF S64x1024x128 S128x51 S64x1024x51 [2] [0] [0, 1] [1] [] []

variable [Facts₀]

def dot_S64x1024x64_S64x128_S64x1024x128_2_0_01_1_n_n : DotDims S64x1024x64 S64x128 S64x1024x128 where
  lhsContracting := [2]
  rhsContracting := [0]
  lhsNonContracting := [0, 1]
  rhsNonContracting := [1]
  lhsBatch := []
  rhsBatch := []
  wf := dot_S64x1024x64_S64x128_S64x1024x128_2_0_01_1_n_n_wf
def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf
def dot_S64x1024x128_S128x128_S64x1024x128_2_0_01_1_n_n : DotDims S64x1024x128 S128x128 S64x1024x128 where
  lhsContracting := [2]
  rhsContracting := [0]
  lhsNonContracting := [0, 1]
  rhsNonContracting := [1]
  lhsBatch := []
  rhsBatch := []
  wf := dot_S64x1024x128_S128x128_S64x1024x128_2_0_01_1_n_n_wf
def dot_S64x1024x128_S128x51_S64x1024x51_2_0_01_1_n_n : DotDims S64x1024x128 S128x51 S64x1024x51 where
  lhsContracting := [2]
  rhsContracting := [0]
  lhsNonContracting := [0, 1]
  rhsNonContracting := [1]
  lhsBatch := []
  rhsBatch := []
  wf := dot_S64x1024x128_S128x51_S64x1024x51_2_0_01_1_n_n_wf

class Facts : Prop extends Facts₀ where

variable [Facts]
-- ==== Proof.LibTables.lean ====
/-
  Plain matrix products, entrywise maxima and column sums of extended reals, written over TABLES
  (functions of two coordinates), and the vector operations at the ideal values read as those.

  A rank-2 array `v` is the table `tab v : Fin a → Fin b → EReal`, and a table `f` the array `arr f`;
  batch member `p` of a rank-3 array is the table `slab v p`. Over tables: `mm A B` is the matrix
  product (entry `(i, j)` is `∑ l, A i l * B l j`), `reluAt z T` the entrywise maximum with the
  extended real `z`, `colsum T` the sum of each column over the rows.

  The lemmas: a `tpu.matmul` with the plain dimension numbers (`DotDims.plain M K N`: rows × contraction
  times contraction × columns) into the zero splat is `arr (mm (tab L) (tab R))`, at any sizes and operand
  formats (`matmul_plain_zero`); an `arith.maximumf` against a broadcast scalar is `arr (reluAt _ (tab V))`
  (`maximumf_broadcast`); a change of float format is the identity (`truncf_ideal`).
-/
import Idealize.ShloMosaic.PureOps.Ideal.Laws
import Idealize.ShloMosaic.Lib.ValueIdx

noncomputable section

open scoped BigOperators

namespace Cert.LibTables

open Idealize.ShloMosaic Idealize.ShloMosaic.ValueIdx

/-! ## Tables -/

/-- A rank-2 array read by its two coordinates. -/
def tab {a b : ℕ} (v : (⟨2, ![a, b]⟩ : Shape).Idx → EReal) : Fin a → Fin b → EReal := fun i j => v (ix2 i j)

/-- A table as a rank-2 array. -/
def arr {a b : ℕ} (f : Fin a → Fin b → EReal) : (⟨2, ![a, b]⟩ : Shape).Idx → EReal := fun j => f (j 0) (j 1)

/-- Batch member `p` of a rank-3 array, as a table of its last two coordinates. -/
def slab {n a b : ℕ} (v : (⟨3, ![n, a, b]⟩ : Shape).Idx → EReal) (p : Fin n) : Fin a → Fin b → EReal :=
  fun i j => v (ix3 p i j)

theorem tab_arr {a b : ℕ} (f : Fin a → Fin b → EReal) : tab (arr f) = f := rfl

theorem arr_tab {a b : ℕ} (v : (⟨2, ![a, b]⟩ : Shape).Idx → EReal) : arr (tab v) = v :=
  funext fun j => congrArg v (eq_ix2 j).symm

theorem arr_apply {a b : ℕ} (f : Fin a → Fin b → EReal) (i : Fin a) (j : Fin b) : arr f (ix2 i j) = f i j := rfl

/-- The matrix product of an `n × k` and a `k × m` table. -/
def mm {n k m : ℕ} (A : Fin n → Fin k → EReal) (B : Fin k → Fin m → EReal) : Fin n → Fin m → EReal :=
  fun i j => ∑ l : Fin k, A i l * B l j

/-- The entrywise maximum of a table with one extended real. -/
def reluAt {n m : ℕ} (z : EReal) (T : Fin n → Fin m → EReal) : Fin n → Fin m → EReal := fun i j => max (T i j) z

/-- Each column summed over the rows. -/
def colsum {n m : ℕ} (T : Fin n → Fin m → EReal) : Fin m → EReal := fun j => ∑ i : Fin n, T i j

/-! ## The plain dimension numbers' operand indices -/

theorem plain_lhs_0 (M K N : ℕ) (j : (⟨2, ![M, N]⟩ : Shape).Idx) (q : (DotDims.plain M K N).contr.Idx) :
    ((DotDims.plain M K N).lhsIdx j q 0).val = (j 0).val := rfl
theorem plain_lhs_1 (M K N : ℕ) (j : (⟨2, ![M, N]⟩ : Shape).Idx) (q : (DotDims.plain M K N).contr.Idx) :
    ((DotDims.plain M K N).lhsIdx j q 1).val = (q ⟨0, (Nat.one_pos : 0 < (DotDims.plain M K N).contr.rank)⟩).val := rfl
theorem plain_rhs_0 (M K N : ℕ) (j : (⟨2, ![M, N]⟩ : Shape).Idx) (q : (DotDims.plain M K N).contr.Idx) :
    ((DotDims.plain M K N).rhsIdx j q 0).val = (q ⟨0, (Nat.one_pos : 0 < (DotDims.plain M K N).contr.rank)⟩).val := rfl
theorem plain_rhs_1 (M K N : ℕ) (j : (⟨2, ![M, N]⟩ : Shape).Idx) (q : (DotDims.plain M K N).contr.Idx) :
    ((DotDims.plain M K N).rhsIdx j q 1).val = (j 1).val := rfl

/-! ## The vector operations at the ideal values, as tables -/

/-- A plain `tpu.matmul` into the zero splat is the matrix product of its operands' tables. -/
theorem matmul_plain_zero (M K N : ℕ) {φ₁ φ₂ : FTy} (L : FVec Ideal ⟨2, ![M, K]⟩ φ₁) (R : FVec Ideal ⟨2, ![K, N]⟩ φ₂) :
    matmul (DotDims.plain M K N) none L R (constant (F := Ideal) ⟨2, ![M, N]⟩ .f32 0x00000000#32)
      = arr (mm (tab L) (tab R)) := by
  funext j
  obtain ⟨p, q, rfl⟩ : ∃ (p : Fin M) (q : Fin N), j = ix2 p q := ⟨j 0, j 1, eq_ix2 j⟩
  refine (Ideal.matmul_constant_zero_apply (DotDims.plain M K N) none L R (ix2 p q)).trans ?_
  rw [← Equiv.sum_comp (contrEquiv1 (DotDims.plain M K N) K rfl rfl).symm]
  show _ = ∑ l : Fin K, L (ix2 p l) * R (ix2 l q)
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 M K N _ _
      | ⟨1, _⟩ => exact (plain_lhs_1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 M K N _ _).trans hk
      | ⟨1, _⟩ => exact plain_rhs_1 M K N _ _)
  rw [el, er]

/-- An entrywise maximum with a broadcast scalar is the table's maximum with it. -/
theorem maximumf_broadcast {a b : ℕ} {φ : FTy} (V : FVec Ideal ⟨2, ![a, b]⟩ φ) (z : Ideal φ) :
    maximumf V (broadcast ⟨2, ![a, b]⟩ z) = arr (reluAt z (tab V)) := by
  funext j
  obtain ⟨p, q, rfl⟩ : ∃ (p : Fin a) (q : Fin b), j = ix2 p q := ⟨j 0, j 1, eq_ix2 j⟩
  rfl

/-- A narrowing change of float format is the identity on extended reals. -/
theorem truncf_ideal {s : Shape} {φ ψ : FTy} (V : FVec Ideal s φ) (h : ψ.bits < φ.bits) :
    (truncf ψ V h : FVec Ideal s ψ) = V := rfl

end Cert.LibTables

end
-- ==== Proof.Net.lean ====
/-
  The function both programs compute. For one batch member, with `A` its 1024 × 1024 adjacency table and `X` its
  1024 × 64 feature table:
    H₁ = max(A · (X · W0), 0),  H₂ = max(A · (H₁ · W1), 0),  H₃ = max(A · (H₂ · W2), 0),  D = max(H₃ · Wd, 0),
  and the result is D summed over its 1024 rows: one extended real per output column. Every product is associated as
  written, so the two programs' sums are the same sums term by term and no law of the extended reals is needed beyond
  `0 + s = s` for the reference's initial value. The zero is kept as the word both programs print.
-/
import proofs.«120026_j11897059410630_1_alg».proof.Proof.LibTables

noncomputable section

open scoped BigOperators

namespace Cert.Gcn

open Idealize.ShloMosaic Idealize.ShloMosaic.ValueIdx Cert.LibTables

/-- The zero both programs clamp at, as the word they print. -/
abbrev z0 : EReal := Ideal.ofBits .f32 0x00000000#32

/-- One batch member's result: three graph convolutions, the dense head, the sum over the nodes. -/
def net (A : Fin 1024 → Fin 1024 → EReal) (X : Fin 1024 → Fin 64 → EReal) (W0 : Fin 64 → Fin 128 → EReal)
    (W1 W2 : Fin 128 → Fin 128 → EReal) (Wd : Fin 128 → Fin 51 → EReal) : Fin 51 → EReal :=
  colsum (reluAt z0 (mm (reluAt z0 (mm A (mm (reluAt z0 (mm A (mm (reluAt z0 (mm A (mm X W0))) W1))) W2))) Wd))

/-- The whole result array: entry `(b, o)` is batch member `b`'s result at column `o`. -/
def G (x : (⟨3, ![64, 1024, 64]⟩ : Shape).Idx → EReal) (a : (⟨3, ![64, 1024, 1024]⟩ : Shape).Idx → EReal)
    (W0 : (⟨2, ![64, 128]⟩ : Shape).Idx → EReal) (W1 W2 : (⟨2, ![128, 128]⟩ : Shape).Idx → EReal)
    (Wd : (⟨2, ![128, 51]⟩ : Shape).Idx → EReal) : (⟨2, ![64, 51]⟩ : Shape).Idx → EReal :=
  fun j => net (slab a (j 0)) (slab x (j 0)) (tab W0) (tab W1) (tab W2) (tab Wd) (j 1)

theorem G_apply (x : (⟨3, ![64, 1024, 64]⟩ : Shape).Idx → EReal) (a : (⟨3, ![64, 1024, 1024]⟩ : Shape).Idx → EReal)
    (W0 : (⟨2, ![64, 128]⟩ : Shape).Idx → EReal) (W1 W2 : (⟨2, ![128, 128]⟩ : Shape).Idx → EReal)
    (Wd : (⟨2, ![128, 51]⟩ : Shape).Idx → EReal) (b : Fin 64) (o : Fin 51) :
    G x a W0 W1 W2 Wd (ix2 b o) = net (slab a b) (slab x b) (tab W0) (tab W1) (tab W2) (tab Wd) o := rfl

end Cert.Gcn

end
-- ==== Proof.KernelPay.lean ====
/-
  What the kernel's body computes at one grid point, read at an index: the value it stores at output column `o` is
  `net` of the tables of its six loaded blocks (the adjacency and feature blocks with their unit batch axis dropped).

  The four matrix products all have the plain dimension numbers (rows × contraction times contraction × columns), so each
  is the table product `mm`; the changes of float format are the identity; each clamp is the entrywise maximum with
  the zero word; the lane sum over the 1024 rows is the column sum; the two unit axes the stored block carries are
  added by shape casts that keep the column.
-/
import proofs.«120026_j11897059410630_1_alg».proof.Proof.Gen.KernelIdeal.Skeleton
import proofs.«120026_j11897059410630_1_alg».proof.Proof.Net
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.LibTables Cert.Gcn

/-! ## The four products' dimension numbers are the plain ones -/

theorem dot_feat : dot_S1024x64_S64x128_S1024x128_1_0_0_1_n_n = DotDims.plain 1024 64 128 := rfl
theorem dot_adj : dot_S1024x1024_S1024x128_S1024x128_1_0_0_1_n_n = DotDims.plain 1024 1024 128 := rfl
theorem dot_hid : dot_S1024x128_S128x128_S1024x128_1_0_0_1_n_n = DotDims.plain 1024 128 128 := rfl
theorem dot_head : dot_S1024x128_S128x51_S1024x51_1_0_0_1_n_n = DotDims.plain 1024 128 51 := rfl

/-- The scalar zero the body broadcasts is the zero word. -/
theorem scalar_zero : Scalar.ofBits (F := Ideal) .f32 0x00000000#32 = z0 := rfl

/-! ## The matrix-product chain -/

/-- The last product's result, before its clamp: the hidden table after three graph convolutions times the head's weights. -/
theorem chain_eq (x0 : FVec Ideal S1x1024x1024 .f32) (x1 : FVec Ideal S1x1024x64 .f32) (x2 : FVec Ideal S64x128 .f32)
    (x3 x4 : FVec Ideal S128x128 .f32) (x5 : FVec Ideal S128x51 .f32) :
    k0_pay2 (F := Ideal) x0 x1 x2 x3 x4 x5
      = arr (mm (reluAt z0 (mm (slab x0 0) (mm (reluAt z0 (mm (slab x0 0) (mm (reluAt z0 (mm (slab x0 0) (mm (slab x1 0) (tab x2)))) (tab x3)))) (tab x4)))) (tab x5)) := by
  have hA : tab (shapeCast S1024x1024 x0 shapeCasts_S1x1024x1024_S1024x1024) = slab x0 0 :=
    funext fun n => funext fun k => shapeCast_1ab_ab_apply x0 shapeCasts_S1x1024x1024_S1024x1024 n k
  have hX : tab (shapeCast S1024x64 x1 shapeCasts_S1x1024x64_S1024x64) = slab x1 0 :=
    funext fun n => funext fun k => shapeCast_1ab_ab_apply x1 shapeCasts_S1x1024x64_S1024x64 n k
  unfold k0_pay2
  simp only [truncf_ideal, dot_feat, dot_adj, dot_hid, dot_head, matmul_plain_zero, maximumf_broadcast, tab_arr, scalar_zero, hA, hX]

/-! ## The clamp, the sum over the rows, and the stored block's unit axes -/

/-- The stored block at column `o` is the sum over the 1024 rows of the entrywise maximum of the body's last two values. -/
theorem store_apply (v32 v33 : FVec Ideal S1024x51 .f32) (u w : Fin 1) (o : Fin 51) :
    k0_pay1 (F := Ideal) v32 v33 (ix3 u w o) = ∑ n : Fin 1024, max (v32 (ix2 n o)) (v33 (ix2 n o)) := by
  unfold k0_pay1
  dsimp only
  refine (shapeCast_ab_1ab_apply _ shapeCasts_S1x51_S1x1x51 u w o).trans ?_
  refine (shapeCast_a_1a_apply _ shapeCasts_S51_S1x51 w o).trans ?_
  refine (Ideal.multiReduction_add_single (maximumf v32 v33) 0x00000000#32 reduces_S1024x51_S51 (.inl rfl) rfl (ix1 o)).trans ?_
  refine Finset.sum_congr rfl fun n _ => ?_
  have e : reduces_S1024x51_S51.lift (ix1 o) n = ix2 n o :=
    funext fun a => Fin.ext (by match a with | ⟨0, _⟩ => rfl | ⟨1, _⟩ => rfl)
  rw [e]
  rfl

/-- THE BODY'S VALUE at output column `o`: `net` of its six blocks' tables. -/
theorem body_apply (x0 : FVec Ideal S1x1024x1024 .f32) (x1 : FVec Ideal S1x1024x64 .f32) (x2 : FVec Ideal S64x128 .f32)
    (x3 x4 : FVec Ideal S128x128 .f32) (x5 : FVec Ideal S128x51 .f32) (u w : Fin 1) (o : Fin 51) :
    k0_pay1 (F := Ideal) (k0_pay2 (F := Ideal) x0 x1 x2 x3 x4 x5) (k0_pay3 (F := Ideal)) (ix3 u w o)
      = net (slab x0 0) (slab x1 0) (tab x2) (tab x3) (tab x4) (tab x5) o := by
  rw [store_apply, chain_eq]
  rfl

end Cert.KernelIdeal.Pay

end
-- ==== Proof.KernelValue.lean ====
/-
  The kernel's run at the ideal values, read: after it the result array holds `G` of the argument arrays.

  Grid point `t` (one per batch member) is handed member `t` of the adjacency and feature arrays and the four
  weight matrices whole; the value its body stores at column `o` is `net` of those tables (the payload module), which is
  entry `(t, 0, o)` of the [64, 1, 51] array `Gk`; point `t`'s block of that array is row `t`, and the 64 rows cover it.
  The reshape after the region drops the unit axis, leaving `G`.
-/
import proofs.«120026_j11897059410630_1_alg».proof.Proof.Gen.KernelIdeal.Frame
import proofs.«120026_j11897059410630_1_alg».proof.Proof.KernelPay
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Val

open Cert.KernelIdeal Cert.KernelIdeal.Gen Cert.KernelIdeal.Pay
open Idealize.ShloMosaic Idealize.ShloMosaic.TcCoe Idealize.SL.Sem Idealize.ShloMosaic.ValueIdx Cert.LibTables Cert.Gcn
open Idealize.ShloMosaic.Pipeline (Dat)

variable (m : (ℓ : Loc nD τ sig) → Buf (Elt Ideal) ℓ) (ρ : Dev nD → PrngReg)

/-! ## The arrays as the region finds them, and each window's block at a point, at their literal types -/

abbrev xArr (c : Dev nD) : FVec Ideal S64x1024x64 .f32 := V m c main_arg0
abbrev aArr (c : Dev nD) : FVec Ideal S64x1024x1024 .f32 := V m c main_arg1
abbrev w0Arr (c : Dev nD) : FVec Ideal S64x128 .f32 := V m c main_arg2
abbrev w1Arr (c : Dev nD) : FVec Ideal S128x128 .f32 := V m c main_arg3
abbrev w2Arr (c : Dev nD) : FVec Ideal S128x128 .f32 := V m c main_arg4
abbrev wdArr (c : Dev nD) : FVec Ideal S128x51 .f32 := V m c main_arg5

abbrev aBlk (c : Dev nD) (t : Fin cfg0.N) : FVec Ideal S1x1024x1024 .f32 := iblk m c 0 t
abbrev xBlk (c : Dev nD) (t : Fin cfg0.N) : FVec Ideal S1x1024x64 .f32 := iblk m c 1 t
abbrev w0Blk (c : Dev nD) (t : Fin cfg0.N) : FVec Ideal S64x128 .f32 := iblk m c 2 t
abbrev w1Blk (c : Dev nD) (t : Fin cfg0.N) : FVec Ideal S128x128 .f32 := iblk m c 3 t
abbrev w2Blk (c : Dev nD) (t : Fin cfg0.N) : FVec Ideal S128x128 .f32 := iblk m c 4 t
abbrev wdBlk (c : Dev nD) (t : Fin cfg0.N) : FVec Ideal S128x51 .f32 := iblk m c 5 t

/-- The batch member a grid point works on. -/
def member (t : Fin cfg0.N) : Fin 64 := ⟨t.val, lt_of_lt_of_eq t.isLt N_0⟩

/-- The result array of the region, [64, 1, 51]: entry `(b, 0, o)` is batch member `b`'s result at column `o`. -/
def Gk (c : Dev nD) : FVec Ideal S64x1x51 .f32 :=
  fun i => G (xArr m c) (aArr m c) (w0Arr m c) (w1Arr m c) (w2Arr m c) (wdArr m c) (ix2 (i 0) (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the adjacency, feature and result windows move with the point along
    the batch axis and stay at block 0 elsewhere; the weight windows stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## Each input block as a table of its argument array -/

/-- The adjacency block at point `t` is batch member `t` of the adjacency array. -/
theorem aBlk_slab (c : Dev nD) (t : Fin cfg0.N) : slab (aBlk m c t) 0 = slab (aArr m c) (member t) := by
  obtain ⟨e0, e1, e2, -⟩ := idx_facts t
  funext n k
  show V m c main_arg1 (((cfg0.win 0).blk t).view.emb (ix3 (0 : Fin 1) n k)) = V m c main_arg1 (ix3 (member t) n k)
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 1024 + 1 * k.val = k.val; omega

/-- The feature block at point `t` is batch member `t` of the feature array. -/
theorem xBlk_slab (c : Dev nD) (t : Fin cfg0.N) : slab (xBlk m c t) 0 = slab (xArr m c) (member t) := by
  obtain ⟨-, -, -, e0, e1, e2, -⟩ := idx_facts t
  funext n k
  show V m c main_arg0 (((cfg0.win 1).blk t).view.emb (ix3 (0 : Fin 1) n k)) = V m c main_arg0 (ix3 (member t) n k)
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 64 + 1 * k.val = k.val; omega

/-- Each weight block is its whole matrix, at every point. -/
theorem w0Blk_tab (c : Dev nD) (t : Fin cfg0.N) : tab (w0Blk m c t) = tab (w0Arr m c) := by
  obtain ⟨-, -, -, -, -, -, e0, e1, -⟩ := idx_facts t
  funext p q
  show V m c main_arg2 (((cfg0.win 2).blk t).view.emb (ix2 p q)) = V m c main_arg2 (ix2 p q)
  refine congrArg _ (funext fun a => Fin.ext ?_)
  match a with
  | ⟨0, _⟩ => show win0_2.index t (0 : Fin 2) * 64 + 1 * p.val = p.val; omega
  | ⟨1, _⟩ => show win0_2.index t (1 : Fin 2) * 128 + 1 * q.val = q.val; omega

theorem w1Blk_tab (c : Dev nD) (t : Fin cfg0.N) : tab (w1Blk m c t) = tab (w1Arr m c) := by
  obtain ⟨-, -, -, -, -, -, -, -, e0, e1, -⟩ := idx_facts t
  funext p q
  show V m c main_arg3 (((cfg0.win 3).blk t).view.emb (ix2 p q)) = V m c main_arg3 (ix2 p q)
  refine congrArg _ (funext fun a => Fin.ext ?_)
  match a with
  | ⟨0, _⟩ => show win0_3.index t (0 : Fin 2) * 128 + 1 * p.val = p.val; omega
  | ⟨1, _⟩ => show win0_3.index t (1 : Fin 2) * 128 + 1 * q.val = q.val; omega

theorem w2Blk_tab (c : Dev nD) (t : Fin cfg0.N) : tab (w2Blk m c t) = tab (w2Arr m c) := by
  obtain ⟨-, -, -, -, -, -, -, -, -, -, e0, e1, -⟩ := idx_facts t
  funext p q
  show V m c main_arg4 (((cfg0.win 4).blk t).view.emb (ix2 p q)) = V m c main_arg4 (ix2 p q)
  refine congrArg _ (funext fun a => Fin.ext ?_)
  match a with
  | ⟨0, _⟩ => show win0_4.index t (0 : Fin 2) * 128 + 1 * p.val = p.val; omega
  | ⟨1, _⟩ => show win0_4.index t (1 : Fin 2) * 128 + 1 * q.val = q.val; omega

theorem wdBlk_tab (c : Dev nD) (t : Fin cfg0.N) : tab (wdBlk m c t) = tab (wdArr m c) := by
  obtain ⟨-, -, -, -, -, -, -, -, -, -, -, -, e0, e1, -⟩ := idx_facts t
  funext p q
  show V m c main_arg5 (((cfg0.win 5).blk t).view.emb (ix2 p q)) = V m c main_arg5 (ix2 p q)
  refine congrArg _ (funext fun a => Fin.ext ?_)
  match a with
  | ⟨0, _⟩ => show win0_5.index t (0 : Fin 2) * 128 + 1 * p.val = p.val; omega
  | ⟨1, _⟩ => show win0_5.index t (1 : Fin 2) * 51 + 1 * q.val = q.val; omega

/-! ## What a point writes back, the cover, the array after the region -/

/-- WHAT POINT `t` WRITES BACK is its block of `Gk`: row `t`. -/
theorem flushed_eq (c : Dev nD) (t : Fin cfg0.N) :
    (dats m 0 c).flushed 6 t = ((cfg0.win 6).blk t).view.read (Elt Ideal) (Gk m c) := by
  show (cfg0.win 6).cut (grid0.coords t) ((dats m 0 c).after 6 t) = _
  rw [after0_6]
  unfold out0_6
  rw [View.canon_unit_zero hz3]
  simp only [View.ld_unit_zero (S := S1x1024x1024) hz3, View.ld_unit_zero (S := S1x1024x64) hz3,
    View.ld_unit_zero (S := S64x128) hz2, View.ld_unit_zero (S := S128x128) hz2, View.ld_unit_zero (S := S128x51) hz2]
  obtain ⟨-, -, -, -, -, -, -, -, -, -, -, -, -, -, e0, e1, e2⟩ := idx_facts t
  funext y
  show k0_pay1 (F := Ideal) (k0_pay2 (F := Ideal) (aBlk m c t) (xBlk m c t) (w0Blk m c t) (w1Blk m c t) (w2Blk m c t) (wdBlk m c t)) (k0_pay3 (F := Ideal)) y
    = Gk m c (((cfg0.win 6).blk t).view.emb y)
  obtain ⟨u, w, o, rfl⟩ : ∃ (u w : Fin 1) (o : Fin 51), y = ix3 u w o := ⟨y 0, y 1, y 2, eq_ix3 y⟩
  refine (body_apply (aBlk m c t) (xBlk m c t) (w0Blk m c t) (w1Blk m c t) (w2Blk m c t) (wdBlk m c t) u w o).trans ?_
  rw [aBlk_slab, xBlk_slab, w0Blk_tab, w1Blk_tab, w2Blk_tab, wdBlk_tab]
  have he : ((cfg0.win 6).blk t).view.emb (ix3 u w o) = ix3 (member t) w o := by
    funext a; apply Fin.ext
    have h0 : u.val < 1 := u.isLt
    match a with
    | ⟨0, _⟩ => show win0_6.index t (0 : Fin 3) * 1 + 1 * u.val = t.val; omega
    | ⟨1, _⟩ => show win0_6.index t (1 : Fin 3) * 1 + 1 * w.val = w.val; omega
    | ⟨2, _⟩ => show win0_6.index t (2 : Fin 3) * 51 + 1 * o.val = o.val; omega
  refine Eq.trans ?_ (congrArg (Gk m c) he.symm)
  rfl

/-- An index of the result array is in point `t`'s block iff each coordinate is in the block's range on its axis. -/
theorem mem_blk (t : Fin cfg0.N) (i : S64x1x51.Idx) :
    i ∈ ((cfg0.win 6).blk t).view.set ↔ ∀ a : Fin 3, win0_6.index t a * S1x1x51.size a ≤ (i a).val ∧ (i a).val < win0_6.index t a * S1x1x51.size a + S1x1x51.size a := by
  show i ∈ ((View.whole main_v0).slice (win0_6.rect t)).set ↔ _
  rw [View.set_slice_whole, Rect.mem_set_unit]
  exact Iff.rfl

/-- Every index of the result array is in the block of the point of its batch coordinate. -/
theorem cover (i : S64x1x51.Idx) : ∃ t : Fin cfg0.N, (cfg0.win 6).flush t = true ∧ i ∈ ((cfg0.win 6).blk t).view.set := by
  have h0 : (i 0).val < 64 := (i 0).isLt
  have h1 : (i 1).val < 1 := (i 1).isLt
  have h2 : (i 2).val < 51 := (i 2).isLt
  refine ⟨⟨(i 0).val, lt_of_lt_of_eq h0 N_0.symm⟩, flush0_6 _, ?_⟩
  obtain ⟨-, -, -, -, -, -, -, -, -, -, -, -, -, -, e0, e1, e2⟩ := idx_facts ⟨(i 0).val, lt_of_lt_of_eq h0 N_0.symm⟩
  have e0' : win0_6.index ⟨(i 0).val, lt_of_lt_of_eq h0 N_0.symm⟩ (0 : Fin 3) = (i 0).val := e0
  rw [mem_blk]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 51 ≤ (i 2).val ∧ (i 2).val < win0_6.index _ (2 : Fin 3) * 51 + 51; rw [e2]; omega

/-- THE RESULT ARRAY OF THE REGION after the run is `Gk`. -/
theorem final (c : Dev nD) : (dats m 0 c).arrAt 6 cfg0.N = Gk m c :=
  (dats m 0 c).arrAt_eq_of_cover 6 (Gk m c) (fun t _ => flushed_eq m c t) cover

/-! ## The reshape after the region, and the run -/

/-- The unit axis dropped: the [64, 51] result is `G` of the argument arrays. -/
theorem tail_eq (c : Dev nD) :
    Pipeline.afterTail₀ cfgs (dats m) 0 (V0 m) [hostOps1] c main_v1
      = G (xArr m c) (aArr m c) (w0Arr m c) (w1Arr m c) (w2Arr m c) (wdArr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0) = Gk m c :=
    (Pipeline.withArrays_arr spec0 launch0.win.arr_inj c (V0 m c) (fun w => (dats m 0 c).arrAt w (cfgs 0).N) 6).trans (final m c)
  funext j
  obtain ⟨b, o, rfl⟩ : ∃ (b : Fin 64) (o : Fin 51), j = ix2 b o := ⟨j 0, j 1, eq_ix2 j⟩
  show shapeCast S64x51 (Pipeline.withArrays (cfgs 0).spec c (V0 m c) (fun w => (dats m 0 c).arrAt w (cfgs 0).N) (Proc.devRef .tc main_v0)) shapeCasts_S64x1x51_S64x51 (ix2 b o) = _
  refine (shapeCast_apply _ shapeCasts_S64x1x51_S64x51 (ix2 b o) (ix3 b (0 : Fin 1) o) ?_).trans ?_
  · rw [Shape.rowMajor_val_three, Shape.rowMajor_val_two]
    show (b.val * 1 + 0) * 51 + o.val = b.val * 51 + o.val
    omega
  · rw [hw]
    rfl

/-- THE KERNEL'S RUN, read: the result at `G` of the argument arrays, the arguments unchanged. -/
theorem run : θ_run defs (onTc (τ := τ) (main (F := Ideal))) ⟨m, fun _ => 0, ρ⟩ fun r => ∀ c : Dev nD,
      r.2.mem ((c.tc : Thread nD τ).loc main_v1)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v1 (Pipeline.mem_restRefs_of main_v1 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Val

end
-- ==== Proof.RefNet.lean ====
/-
  The reference, stage by stage, on one batch member: each `dot_general` against a weight matrix is the table
  product of the member's table with the weights' table; each batched `dot_general` with the adjacency is the product
  of the member's adjacency table with the member's table; each `relu` is the entrywise maximum with the zero word;
  the final reduce over the node axis is the column sum (its initial value is the zero word, which is the extended
  real 0). Chained, the reference's result array is `G` of its six arguments.
-/
import proofs.«120026_j11897059410630_1_alg».proof.Proof.Gen.ReferenceIdeal.Read
import proofs.«120026_j11897059410630_1_alg».proof.Proof.Net

noncomputable section

open scoped BigOperators

namespace Cert.ReferenceIdeal.RefNet

open Cert.ReferenceIdeal Cert.ReferenceIdeal.Gen Cert.ReferenceIdeal.Read
open Idealize.ShloMosaic Idealize.ShloMosaic.ValueIdx Cert.LibTables Cert.Gcn

variable (x0 : FVec Ideal S64x1024x64 .f32) (x1 : FVec Ideal S64x1024x1024 .f32) (x2 : FVec Ideal S64x128 .f32)
  (x3 x4 : FVec Ideal S128x128 .f32) (x5 : FVec Ideal S128x51 .f32)

/-! ## First graph convolution -/

theorem slab_v0 (b : Fin 64) : slab (val_main_v0 (F := Ideal) x0 x2) b = mm (slab x0 b) (tab x2) := by
  funext n c
  show val_main_v0 (F := Ideal) x0 x2 (ix3 b n c) = ∑ k : Fin 64, x0 (ix3 b n k) * x2 (ix2 k c)
  rw [val_main_v0_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl))

theorem slab_v1 (b : Fin 64) :
    slab (val_main_v1 (F := Ideal) x0 x1 x2) b = mm (slab x1 b) (slab (val_main_v0 (F := Ideal) x0 x2) b) := by
  funext n c
  show val_main_v1 (F := Ideal) x0 x1 x2 (ix3 b n c) = ∑ k : Fin 1024, x1 (ix3 b n k) * val_main_v0 (F := Ideal) x0 x2 (ix3 b k c)
  rw [val_main_v1_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl | ⟨2, _⟩ => rfl))

theorem slab_v2 (b : Fin 64) :
    slab (val_main_v2 (F := Ideal) x0 x1 x2) b = reluAt z0 (slab (val_main_v1 (F := Ideal) x0 x1 x2) b) := by
  funext n c
  show val_main_v2 (F := Ideal) x0 x1 x2 (ix3 b n c) = max (val_main_v1 (F := Ideal) x0 x1 x2 (ix3 b n c)) z0
  rw [val_main_v2_apply, val_main_call0_v0_apply, val_main_call0_cst_apply]
  rfl

/-! ## Second graph convolution -/

theorem slab_v3 (b : Fin 64) :
    slab (val_main_v3 (F := Ideal) x0 x1 x2 x3) b = mm (slab (val_main_v2 (F := Ideal) x0 x1 x2) b) (tab x3) := by
  funext n c
  show val_main_v3 (F := Ideal) x0 x1 x2 x3 (ix3 b n c) = ∑ k : Fin 128, val_main_v2 (F := Ideal) x0 x1 x2 (ix3 b n k) * x3 (ix2 k c)
  rw [val_main_v3_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl))

theorem slab_v4 (b : Fin 64) :
    slab (val_main_v4 (F := Ideal) x0 x1 x2 x3) b = mm (slab x1 b) (slab (val_main_v3 (F := Ideal) x0 x1 x2 x3) b) := by
  funext n c
  show val_main_v4 (F := Ideal) x0 x1 x2 x3 (ix3 b n c) = ∑ k : Fin 1024, x1 (ix3 b n k) * val_main_v3 (F := Ideal) x0 x1 x2 x3 (ix3 b k c)
  rw [val_main_v4_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl | ⟨2, _⟩ => rfl))

theorem slab_v5 (b : Fin 64) :
    slab (val_main_v5 (F := Ideal) x0 x1 x2 x3) b = reluAt z0 (slab (val_main_v4 (F := Ideal) x0 x1 x2 x3) b) := by
  funext n c
  show val_main_v5 (F := Ideal) x0 x1 x2 x3 (ix3 b n c) = max (val_main_v4 (F := Ideal) x0 x1 x2 x3 (ix3 b n c)) z0
  rw [val_main_v5_apply, val_main_call1_v0_apply, val_main_call1_cst_apply]
  rfl

/-! ## Third graph convolution -/

theorem slab_v6 (b : Fin 64) :
    slab (val_main_v6 (F := Ideal) x0 x1 x2 x3 x4) b = mm (slab (val_main_v5 (F := Ideal) x0 x1 x2 x3) b) (tab x4) := by
  funext n c
  show val_main_v6 (F := Ideal) x0 x1 x2 x3 x4 (ix3 b n c) = ∑ k : Fin 128, val_main_v5 (F := Ideal) x0 x1 x2 x3 (ix3 b n k) * x4 (ix2 k c)
  rw [val_main_v6_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl))

theorem slab_v7 (b : Fin 64) :
    slab (val_main_v7 (F := Ideal) x0 x1 x2 x3 x4) b = mm (slab x1 b) (slab (val_main_v6 (F := Ideal) x0 x1 x2 x3 x4) b) := by
  funext n c
  show val_main_v7 (F := Ideal) x0 x1 x2 x3 x4 (ix3 b n c) = ∑ k : Fin 1024, x1 (ix3 b n k) * val_main_v6 (F := Ideal) x0 x1 x2 x3 x4 (ix3 b k c)
  rw [val_main_v7_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl | ⟨2, _⟩ => rfl))

theorem slab_v8 (b : Fin 64) :
    slab (val_main_v8 (F := Ideal) x0 x1 x2 x3 x4) b = reluAt z0 (slab (val_main_v7 (F := Ideal) x0 x1 x2 x3 x4) b) := by
  funext n c
  show val_main_v8 (F := Ideal) x0 x1 x2 x3 x4 (ix3 b n c) = max (val_main_v7 (F := Ideal) x0 x1 x2 x3 x4 (ix3 b n c)) z0
  rw [val_main_v8_apply, val_main_call2_v0_apply, val_main_call2_cst_apply]
  rfl

/-! ## The dense head and the sum over the nodes -/

theorem slab_v9 (b : Fin 64) :
    slab (val_main_v9 (F := Ideal) x0 x1 x2 x3 x4 x5) b = mm (slab (val_main_v8 (F := Ideal) x0 x1 x2 x3 x4) b) (tab x5) := by
  funext n c
  show val_main_v9 (F := Ideal) x0 x1 x2 x3 x4 x5 (ix3 b n c) = ∑ k : Fin 128, val_main_v8 (F := Ideal) x0 x1 x2 x3 x4 (ix3 b n k) * x5 (ix2 k c)
  rw [val_main_v9_apply]
  exact Finset.sum_congr rfl fun k _ => congrArg₂ (· * ·) (congrArg _ (funext fun a => by match a with | ⟨0, _⟩ => rfl | ⟨1, _⟩ => rfl | ⟨2, _⟩ => rfl)) (congrArg _ (funext fun a => by match a with | ⟨0, _⟩ => rfl | ⟨1, _⟩ => rfl))

theorem slab_v10 (b : Fin 64) :
    slab (val_main_v10 (F := Ideal) x0 x1 x2 x3 x4 x5) b = reluAt z0 (slab (val_main_v9 (F := Ideal) x0 x1 x2 x3 x4 x5) b) := by
  funext n c
  show val_main_v10 (F := Ideal) x0 x1 x2 x3 x4 x5 (ix3 b n c) = max (val_main_v9 (F := Ideal) x0 x1 x2 x3 x4 x5 (ix3 b n c)) z0
  rw [val_main_v10_apply, val_main_call3_v0_apply, val_main_call3_cst_apply]
  rfl

/-- The reduce over the node axis, from the zero word: the column sum of the member's table. -/
theorem v11_apply (b : Fin 64) (o : Fin 51) :
    val_main_v11 (F := Ideal) x0 x1 x2 x3 x4 x5 (ix2 b o) = colsum (slab (val_main_v10 (F := Ideal) x0 x1 x2 x3 x4 x5) b) o := by
  rw [val_main_v11_apply, val_main_cst_apply]
  show Ideal.ofBits .f32 0x00000000#32 + _ = ∑ n : Fin 1024, val_main_v10 (F := Ideal) x0 x1 x2 x3 x4 x5 (ix3 b n o)
  rw [Ideal.ofBits_zero_f32, zero_add]
  exact Finset.sum_congr rfl fun k _ => (congrArg _ (funext fun a => by match a with | ⟨0, _⟩ => rfl | ⟨1, _⟩ => rfl | ⟨2, _⟩ => rfl))

/-- THE REFERENCE'S RESULT is `G` of its arguments (features first, then the adjacency, then the four weight matrices). -/
theorem result_eq : val_main_v11 (F := Ideal) x0 x1 x2 x3 x4 x5 = G x0 x1 x2 x3 x4 x5 := by
  funext j
  obtain ⟨b, o, rfl⟩ : ∃ (b : Fin 64) (o : Fin 51), j = ix2 b o := ⟨j 0, j 1, eq_ix2 j⟩
  rw [v11_apply, slab_v10, slab_v9, slab_v8, slab_v7, slab_v6, slab_v5, slab_v4, slab_v3, slab_v2, slab_v1, slab_v0]
  rfl

end Cert.ReferenceIdeal.RefNet

end
-- ==== Proof.lean ====
/-
  A three-layer graph convolution with a dense head and a global sum pool, as one fused kernel gridded over the batch,
  against the same network written with einsums.

  For batch member b, with A = a[b] (1024 × 1024) and X = x[b] (1024 × 64), both programs compute
    H₁ = max(A · (X · W0), 0),  H₂ = max(A · (H₁ · W1), 0),  H₃ = max(A · (H₂ · W2), 0),  D = max(H₃ · Wd, 0),
    out[b, o] = Σₙ D[n, o].
  The kernel casts its operands to bf16 before each product, which at the ideal values is the identity, and both
  programs associate every product the same way, so over the extended reals the two results are the same sums term
  by term: no distributivity, hence no use of the inputs' finiteness. The reference starts its final sum from the
  zero word, which is the extended real 0.

  The kernel's side: the body's stored value at a column is that network of the six blocks' tables (Proof/KernelPay.lean);
  point t's blocks are batch member t of the adjacency and feature arrays and the weight matrices whole, its result block
  is row t of the [64, 1, 51] result array, the 64 rows cover it, and the reshape after the region drops the unit axis
  (Proof/KernelValue.lean). The reference's side: its eleven stages read on one batch member, chained
  (Proof/RefNet.lean). The ideal pass rewrote nothing, so the idealization claim has no conjunct.
-/
import proofs.«120026_j11897059410630_1_alg».proof.Defs
import proofs.«120026_j11897059410630_1_alg».proof.Proof.Gen.Kernel
import proofs.«120026_j11897059410630_1_alg».proof.Proof.Gen.Kernel.Skeleton
import proofs.«120026_j11897059410630_1_alg».proof.Proof.Gen.Kernel.Launch
import proofs.«120026_j11897059410630_1_alg».proof.Proof.Gen.Kernel.Points
import proofs.«120026_j11897059410630_1_alg».proof.Proof.Gen.Kernel.Frame
import proofs.«120026_j11897059410630_1_alg».proof.Proof.Gen.KernelIdeal
import proofs.«120026_j11897059410630_1_alg».proof.Proof.Gen.KernelIdeal.Skeleton
import proofs.«120026_j11897059410630_1_alg».proof.Proof.Gen.KernelIdeal.Launch
import proofs.«120026_j11897059410630_1_alg».proof.Proof.Gen.KernelIdeal.Points
import proofs.«120026_j11897059410630_1_alg».proof.Proof.Gen.KernelIdeal.Frame
import proofs.«120026_j11897059410630_1_alg».proof.Proof.Gen.ReferenceIdeal
import proofs.«120026_j11897059410630_1_alg».proof.Proof.Gen.Pre_finite_inputs
import proofs.«120026_j11897059410630_1_alg».proof.Proof.Gen.ReferenceIdeal.Run
import proofs.«120026_j11897059410630_1_alg».proof.Proof.Gen.ReferenceIdeal.Read
import proofs.«120026_j11897059410630_1_alg».proof.Proof.KernelValue
import proofs.«120026_j11897059410630_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `G` of the argument arrays: the kernel's by its run read block by block,
    the reference's by its stages read on each batch member; the arguments agree. -/
theorem algebraic : Cert.algebraic_KernelIdeal_ReferenceIdeal := by
  intro m ρ m' ρ' _ hagree
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq (F := Ideal) _ _ _ _ _ _).trans ?_
  refine (Cert.ReferenceIdeal.RefNet.result_eq _ _ _ _ _ _).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
